-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288 : Shape := ⟨1, ![524288]⟩
abbrev S1000000x64 : Shape := ⟨2, ![1000000, 64]⟩
abbrev S2000000x64 : Shape := ⟨2, ![2000000, 64]⟩
abbrev S32x64 : Shape := ⟨2, ![32, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S2000000x64 : S_.BroadcastsInDim S2000000x64 (![] : Fin 0 → Fin S2000000x64.rank)
  reducesTo_S2000000x64_S_d0_1 : S2000000x64.ReducesTo [0, 1] S_
  bcast_S_S32x64 : S_.BroadcastsInDim S32x64 (![] : Fin 0 → Fin S32x64.rank)
  reducesTo_S32x64_S_d0_1 : S32x64.ReducesTo [0, 1] S_

variable [Facts]

def fn_part1 {F : FTy → Type} [FloatOps F] (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  main_v18

def fn {F : FTy → Type} [FloatOps F] (main_arg0 : IVec S524288 32) (main_arg1 : IVec S524288 32) (main_arg2 : FVec F S1000000x64 .f32) (main_arg3 : FVec F S2000000x64 .f32) (main_arg4 : FVec F S32x64 .f32) (main_arg5 : FVec F S32x64 .f32) : IVec S_ 1 :=
  let main_v0 : FVec F S1000000x64 .f32 := Host.absf main_arg2
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S2000000x64 .f32 := Host.absf main_arg3
  let main_cst_0 : FVec F S_ .f32 := constant S_ .f32 0x7F800000#32
  let main_v5 : FVec F S2000000x64 .f32 := broadcastInDim S2000000x64 ![] bcast_S_S2000000x64 main_cst_0
  let main_v6 : IVec S2000000x64 1 := cmpf .olt main_v4 main_v5
  let main_c_1 : IVec S_ 1 := constantI S_ 1 1#1
  let main_v7 : IVec S_ 1 := (fun x v => Host.reduce IntOp.andi x v reducesTo_S2000000x64_S_d0_1 h_S_) main_v6 main_c_1
  let main_v8 : IVec S_ 1 := andi main_v3 main_v7
  let main_v9 : FVec F S32x64 .f32 := Host.absf main_arg4
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S32x64 .f32 := Host.absf main_arg5
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_v13 main_v16
-- ==== Kernel.lean ====
abbrev S524288 : Shape := ⟨1, ![524288]⟩
abbrev S1000000x64 : Shape := ⟨2, ![1000000, 64]⟩
abbrev S2000000x64 : Shape := ⟨2, ![2000000, 64]⟩
abbrev S32x64 : Shape := ⟨2, ![32, 64]⟩
abbrev S_ : Shape := ⟨0, ![]⟩
abbrev S524288x1 : Shape := ⟨2, ![524288, 1]⟩
abbrev S524288x64 : Shape := ⟨2, ![524288, 64]⟩
abbrev S4096x64 : Shape := ⟨2, ![4096, 64]⟩
abbrev S4096 : Shape := ⟨1, ![4096]⟩
abbrev S64x32 : Shape := ⟨2, ![64, 32]⟩
abbrev S4096x32 : Shape := ⟨2, ![4096, 32]⟩
abbrev S4096x1 : Shape := ⟨2, ![4096, 1]⟩

abbrev nBuf : Space → Nat
  | .hbm => 25
  | .vmem => 8
  | .smem => 0
  | _ => 0

abbrev bufTy : (tb : Table) → Fin (tcTables nBuf tb) → BufTy
  | .hbm, ⟨0, _⟩ => ⟨S524288, .i32⟩
  | .hbm, ⟨1, _⟩ => ⟨S524288, .i32⟩
  | .hbm, ⟨2, _⟩ => ⟨S1000000x64, .f32⟩
  | .hbm, ⟨3, _⟩ => ⟨S2000000x64, .f32⟩
  | .hbm, ⟨4, _⟩ => ⟨S32x64, .f32⟩
  | .hbm, ⟨5, _⟩ => ⟨S32x64, .f32⟩
  | .hbm, ⟨6, _⟩ => ⟨S_, .i32⟩
  | .hbm, ⟨7, _⟩ => ⟨S524288, .i32⟩
  | .hbm, ⟨8, _⟩ => ⟨S524288, .i1⟩
  | .hbm, ⟨9, _⟩ => ⟨S_, .i32⟩
  | .hbm, ⟨10, _⟩ => ⟨S524288, .i32⟩
  | .hbm, ⟨11, _⟩ => ⟨S524288, .i32⟩
  | .hbm, ⟨12, _⟩ => ⟨S524288, .i32⟩
  | .hbm, ⟨13, _⟩ => ⟨S524288x1, .i32⟩
  | .hbm, ⟨14, _⟩ => ⟨S524288x64, .f32⟩
  | .hbm, ⟨15, _⟩ => ⟨S_, .i32⟩
  | .hbm, ⟨16, _⟩ => ⟨S524288, .i32⟩
  | .hbm, ⟨17, _⟩ => ⟨S524288, .i1⟩
  | .hbm, ⟨18, _⟩ => ⟨S_, .i32⟩
  | .hbm, ⟨19, _⟩ => ⟨S524288, .i32⟩
  | .hbm, ⟨20, _⟩ => ⟨S524288, .i32⟩
  | .hbm, ⟨21, _⟩ => ⟨S524288, .i32⟩
  | .hbm, ⟨22, _⟩ => ⟨S524288x1, .i32⟩
  | .hbm, ⟨23, _⟩ => ⟨S524288x64, .f32⟩
  | .hbm, ⟨24, _⟩ => ⟨S524288, .f32⟩
  | .local _ .vmem, ⟨0, _⟩ => ⟨S4096x64, .f32⟩
  | .local _ .vmem, ⟨1, _⟩ => ⟨S4096x64, .f32⟩
  | .local _ .vmem, ⟨2, _⟩ => ⟨S4096x64, .f32⟩
  | .local _ .vmem, ⟨3, _⟩ => ⟨S4096x64, .f32⟩
  | .local _ .vmem, ⟨4, _⟩ => ⟨S32x64, .f32⟩
  | .local _ .vmem, ⟨5, _⟩ => ⟨S32x64, .f32⟩
  | .local _ .vmem, ⟨6, _⟩ => ⟨S4096, .f32⟩
  | .local _ .vmem, ⟨7, _⟩ => ⟨S4096, .f32⟩
  | _, _ => ⟨S524288, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S32x64_S32x64_0_0 : ∀ a, (![0, 0] : Fin 2 → Nat) a + S32x64.size a ≤ S32x64.size a
  h_S32x64 : 0 < S32x64.numel
  bitsLt_bf16_f32 : FTy.bits .bf16 < FTy.bits .f32
  transposes_S32x64_p1_0_S64x32 : S32x64.Transposes [1, 0] S64x32
  reduces_S4096x64_S4096 : S4096x64.Reduces [1] S4096
  shapeCasts_S4096_S4096x1 : S4096.ShapeCasts S4096x1
  broadcasts_S4096x1_S4096x64 : S4096x1.Broadcasts S4096x64
  inb_S4096_S4096_0 : ∀ a, (![0] : Fin 1 → Nat) a + S4096.size a ≤ S4096.size a
  h_S4096 : 0 < S4096.numel
  gather_S1000000x64_S524288x1_S524288x64_1_0_n_n_0_1_164_wf : GatherDims.WF S1000000x64 S524288x1 S524288x64 [1] [0] [] [0] [] 1 ![1, 64]
  gather_S2000000x64_S524288x1_S524288x64_1_0_n_n_0_1_164_wf : GatherDims.WF S2000000x64 S524288x1 S524288x64 [1] [0] [] [0] [] 1 ![1, 64]
  dot_S4096x64_S64x32_S4096x32_1_0_0_1_n_n_wf : DotDims.WF S4096x64 S64x32 S4096x32 [1] [0] [0] [1] [] []
  dot_S4096x32_S32x64_S4096x64_1_0_0_1_n_n_wf : DotDims.WF S4096x32 S32x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S524288x64.size a
  hwx0_0 : ∀ i : grid0.Coords, EltTy.bits .f32 = 32 ∨ (Rect.block (s := S524288x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S524288x64.size a
  hwx0_1 : ∀ i : grid0.Coords, EltTy.bits .f32 = 32 ∨ (Rect.block (s := S524288x64) S4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096.size a ≤ S524288.size a
  hwx0_4 : ∀ i : grid0.Coords, EltTy.bits .f32 = 32 ∨ (Rect.block (s := S524288) S4096.size (cc0_transform_4 i) (hinb0_4 i)).WholeWords (EltTy.packing .f32)

variable [Facts₀]

def gather_S1000000x64_S524288x1_S524288x64_1_0_n_n_0_1_164 : GatherDims S1000000x64 S524288x1 S524288x64 where
  offsetDims := [1]
  collapsedSliceDims := [0]
  operandBatchingDims := []
  startIndicesBatchingDims := []
  startIndexMap := [0]
  indexVectorDim := 1
  sliceSizes := ![1, 64]
  wf := gather_S1000000x64_S524288x1_S524288x64_1_0_n_n_0_1_164_wf
def gather_S2000000x64_S524288x1_S524288x64_1_0_n_n_0_1_164 : GatherDims S2000000x64 S524288x1 S524288x64 where
  offsetDims := [1]
  collapsedSliceDims := [0]
  operandBatchingDims := []
  startIndicesBatchingDims := []
  startIndexMap := [0]
  indexVectorDim := 1
  sliceSizes := ![1, 64]
  wf := gather_S2000000x64_S524288x1_S524288x64_1_0_n_n_0_1_164_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def dot_S4096x32_S32x64_S4096x64_1_0_0_1_n_n : DotDims S4096x32 S32x64 S4096x64 where
  lhsContracting := [1]
  rhsContracting := [0]
  lhsNonContracting := [0]
  rhsNonContracting := [1]
  lhsBatch := []
  rhsBatch := []
  wf := dot_S4096x32_S32x64_S4096x64_1_0_0_1_n_n_wf

abbrev win0_0 : Pipeline.Window sig grid0 :=
  Pipeline.Window.ofSpec (Memref.whole main_v6) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S524288 : Shape := ⟨1, ![524288]⟩
abbrev S1000000x64 : Shape := ⟨2, ![1000000, 64]⟩
abbrev S2000000x64 : Shape := ⟨2, ![2000000, 64]⟩
abbrev S32x64 : Shape := ⟨2, ![32, 64]⟩
abbrev S_ : Shape := ⟨0, ![]⟩
abbrev S524288x1 : Shape := ⟨2, ![524288, 1]⟩
abbrev S524288x64 : Shape := ⟨2, ![524288, 64]⟩
abbrev S524288x32 : Shape := ⟨2, ![524288, 32]⟩

abbrev nBuf : Space → Nat
  | .hbm => 50
  | .vmem => 0
  | .smem => 0
  | _ => 0

abbrev bufTy : (tb : Table) → Fin (tcTables nBuf tb) → BufTy
  | .hbm, ⟨0, _⟩ => ⟨S524288, .i32⟩
  | .hbm, ⟨1, _⟩ => ⟨S524288, .i32⟩
  | .hbm, ⟨2, _⟩ => ⟨S1000000x64, .f32⟩
  | .hbm, ⟨3, _⟩ => ⟨S2000000x64, .f32⟩
  | .hbm, ⟨4, _⟩ => ⟨S32x64, .f32⟩
  | .hbm, ⟨5, _⟩ => ⟨S32x64, .f32⟩
  | .hbm, ⟨6, _⟩ => ⟨S_, .i32⟩
  | .hbm, ⟨7, _⟩ => ⟨S524288, .i32⟩
  | .hbm, ⟨8, _⟩ => ⟨S524288, .i1⟩
  | .hbm, ⟨9, _⟩ => ⟨S_, .i32⟩
  | .hbm, ⟨10, _⟩ => ⟨S524288, .i32⟩
  | .hbm, ⟨11, _⟩ => ⟨S524288, .i32⟩
  | .hbm, ⟨12, _⟩ => ⟨S524288, .i32⟩
  | .hbm, ⟨13, _⟩ => ⟨S524288x1, .i32⟩
  | .hbm, ⟨14, _⟩ => ⟨S524288x64, .f32⟩
  | .hbm, ⟨15, _⟩ => ⟨S_, .i32⟩
  | .hbm, ⟨16, _⟩ => ⟨S524288, .i32⟩
  | .hbm, ⟨17, _⟩ => ⟨S524288, .i1⟩
  | .hbm, ⟨18, _⟩ => ⟨S_, .i32⟩
  | .hbm, ⟨19, _⟩ => ⟨S524288, .i32⟩
  | .hbm, ⟨20, _⟩ => ⟨S524288, .i32⟩
  | .hbm, ⟨21, _⟩ => ⟨S524288, .i32⟩
  | .hbm, ⟨22, _⟩ => ⟨S524288x1, .i32⟩
  | .hbm, ⟨23, _⟩ => ⟨S524288x64, .f32⟩
  | .hbm, ⟨24, _⟩ => ⟨S524288x64, .f32⟩
  | .hbm, ⟨25, _⟩ => ⟨S524288x32, .f32⟩
  | .hbm, ⟨26, _⟩ => ⟨S_, .f32⟩
  | .hbm, ⟨27, _⟩ => ⟨S524288x32, .f32⟩
  | .hbm, ⟨28, _⟩ => ⟨S524288x32, .f32⟩
  | .hbm, ⟨29, _⟩ => ⟨S524288x64, .f32⟩
  | .hbm, ⟨30, _⟩ => ⟨S524288x64, .f32⟩
  | .hbm, ⟨31, _⟩ => ⟨S524288x64, .f32⟩
  | .hbm, ⟨32, _⟩ => ⟨S_, .f32⟩
  | .hbm, ⟨33, _⟩ => ⟨S524288, .f32⟩
  | .hbm, ⟨34, _⟩ => ⟨S524288x1, .f32⟩
  | .hbm, ⟨35, _⟩ => ⟨S524288x64, .f32⟩
  | .hbm, ⟨36, _⟩ => ⟨S524288x64, .f32⟩
  | .hbm, ⟨37, _⟩ => ⟨S524288x64, .f32⟩
  | .hbm, ⟨38, _⟩ => ⟨S524288x64, .f32⟩
  | .hbm, ⟨39, _⟩ => ⟨S_, .f32⟩
  | .hbm, ⟨40, _⟩ => ⟨S524288, .f32⟩
  | .hbm, ⟨41, _⟩ => ⟨S524288x1, .f32⟩
  | .hbm, ⟨42, _⟩ => ⟨S524288x64, .f32⟩
  | .hbm, ⟨43, _⟩ => ⟨S524288x64, .f32⟩
  | .hbm, ⟨44, _⟩ => ⟨S524288x64, .f32⟩
  | .hbm, ⟨45, _⟩ => ⟨S524288x64, .f32⟩
  | .hbm, ⟨46, _⟩ => ⟨S524288x64, .f32⟩
  | .hbm, ⟨47, _⟩ => ⟨S524288x64, .f32⟩
  | .hbm, ⟨48, _⟩ => ⟨S_, .f32⟩
  | .hbm, ⟨49, _⟩ => ⟨S524288, .f32⟩
  | _, _ => ⟨S524288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  bcast_S_S524288x32 : S_.BroadcastsInDim S524288x32 (![] : Fin 0 → Fin S524288x32.rank)
  reducesTo_S524288x64_S524288_d1 : S524288x64.ReducesTo [1] S524288
  h_S_ : 0 < S_.numel
  bcast_S524288x1_S524288x64_0_1 : S524288x1.BroadcastsInDim S524288x64 (![0, 1] : Fin 2 → Fin S524288x64.rank)
  gather_S1000000x64_S524288x1_S524288x64_1_0_n_n_0_1_164_wf : GatherDims.WF S1000000x64 S524288x1 S524288x64 [1] [0] [] [0] [] 1 ![1, 64]
  gather_S2000000x64_S524288x1_S524288x64_1_0_n_n_0_1_164_wf : GatherDims.WF S2000000x64 S524288x1 S524288x64 [1] [0] [] [0] [] 1 ![1, 64]
  dot_S524288x64_S32x64_S524288x32_1_1_0_0_n_n_wf : DotDims.WF S524288x64 S32x64 S524288x32 [1] [1] [0] [0] [] []
  dot_S524288x32_S32x64_S524288x64_1_0_0_1_n_n_wf : DotDims.WF S524288x32 S32x64 S524288x64 [1] [0] [0] [1] [] []

variable [Facts₀]

def gather_S1000000x64_S524288x1_S524288x64_1_0_n_n_0_1_164 : GatherDims S1000000x64 S524288x1 S524288x64 where
  offsetDims := [1]
  collapsedSliceDims := [0]
  operandBatchingDims := []
  startIndicesBatchingDims := []
  startIndexMap := [0]
  indexVectorDim := 1
  sliceSizes := ![1, 64]
  wf := gather_S1000000x64_S524288x1_S524288x64_1_0_n_n_0_1_164_wf
def gather_S2000000x64_S524288x1_S524288x64_1_0_n_n_0_1_164 : GatherDims S2000000x64 S524288x1 S524288x64 where
  offsetDims := [1]
  collapsedSliceDims := [0]
  operandBatchingDims := []
  startIndicesBatchingDims := []
  startIndexMap := [0]
  indexVectorDim := 1
  sliceSizes := ![1, 64]
  wf := gather_S2000000x64_S524288x1_S524288x64_1_0_n_n_0_1_164_wf
def dot_S524288x64_S32x64_S524288x32_1_1_0_0_n_n : DotDims S524288x64 S32x64 S524288x32 where
  lhsContracting := [1]
  rhsContracting := [1]
  lhsNonContracting := [0]
  rhsNonContracting := [0]
  lhsBatch := []
  rhsBatch := []
  wf := dot_S524288x64_S32x64_S524288x32_1_1_0_0_n_n_wf
def dot_S524288x32_S32x64_S524288x64_1_0_0_1_n_n : DotDims S524288x32 S32x64 S524288x64 where
  lhsContracting := [1]
  rhsContracting := [0]
  lhsNonContracting := [0]
  rhsNonContracting := [1]
  lhsBatch := []
  rhsBatch := []
  wf := dot_S524288x32_S32x64_S524288x64_1_0_0_1_n_n_wf

class Facts : Prop extends Facts₀ where

variable [Facts]
-- ==== Proof.RouteScore.lean ====
/-
  The score of one (user, item) pair, as a function of the two gathered embedding rows and of the two small tables.

  With u and v the user's and the item's rows (64 entries each), P the table of 32 preference rows and N the table of
  32 hyperplane normals:
    * the routing weight of preference p is half the inner product of u + v with row p of P;
    * the relation vector r and the normal n are the weighted sums of the rows of P and of N under those weights;
    * each embedding e is projected onto the hyperplane of n, e − ⟨e, n⟩ n;
    * the score is the L1 norm of (projected u) + r − (projected v).
  Everything is over the extended reals; the constant one half is kept as the float word both programs print.
-/
import Idealize.ShloMosaic.PureOps.Ideal
import Idealize.ShloMosaic.Lib.ValueIdx

noncomputable section

namespace Cert.RouteScore

open Idealize.ShloMosaic Idealize.ShloMosaic.ValueIdx

/-- The float word of one half, read as an extended real. -/
abbrev half : EReal := Ideal.ofBits .f32 0x3F000000#32

/-- Row r of a two-axis array, as a function of the column. -/
abbrev row {R C : ℕ} (x : (⟨2, ![R, C]⟩ : Shape).Idx → EReal) (r : Fin R) : Fin C → EReal := fun k => x (ix2 r k)

/-- The routing weight of preference p: half the inner product of u + v with row p of the preference table. -/
def weight (P : Fin 32 → Fin 64 → EReal) (u v : Fin 64 → EReal) (p : Fin 32) : EReal :=
  (∑ k : Fin 64, (u k + v k) * P p k) * half

/-- The weighted sum of the rows of a table, at column d. -/
def mix (w : Fin 32 → EReal) (T : Fin 32 → Fin 64 → EReal) (d : Fin 64) : EReal :=
  ∑ p : Fin 32, w p * T p d

/-- The projection of e onto the hyperplane with normal n, at column d: e − ⟨e, n⟩ n. -/
def project (e n : Fin 64 → EReal) (d : Fin 64) : EReal :=
  e d - (∑ k : Fin 64, e k * n k) * n d

/-- The absolute value on the extended reals, as the larger of a number and its negative. -/
abbrev absE (x : EReal) : EReal := max x (-x)

/-- The score of the pair (u, v) under the tables P and N. -/
def score (P N : Fin 32 → Fin 64 → EReal) (u v : Fin 64 → EReal) : EReal :=
  ∑ d : Fin 64, absE (project u (mix (weight P u v) N) d + mix (weight P u v) P d - project v (mix (weight P u v) N) d)

end Cert.RouteScore

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.LibRowColumn.lean ====
/-
  Row sums and the column forms a row sum with kept dimensions passes through, read at an entry.

  A sum along the rows of an [a, b] matrix is a vector of length a; "keeping the dimension" casts it to the column
  [a, 1]; a column is re-laid as the row [1, a] by another cast, and a column is broadcast along the second axis to
  [a, b]. Each lemma reads one of these operations at an index written by its coordinates: the cast and the broadcast
  read the operand at one index, and the row sum at row p is the sum over the columns k of entry (p, k).
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowColumn

open Idealize.ShloMosaic Idealize.ShloMosaic.ValueIdx

variable {α : Type}

/-- A vector [a] cast to the column [a, 1] reads, at (i, u), the operand at i: both have row-major position i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] cast to the row [1, a] reads, at (u, i), the operand at (i, 0): both have row-major position i. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] matrix along its rows, over the extended reals, read at row p: the sum over the columns k of
    entry (p, k). The accumulator is the sum's neutral word, so nothing is added to it. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => ?_
  exact congrArg src (funext fun c => Fin.ext (by match c with | ⟨0, _⟩ => rfl | ⟨1, _⟩ => rfl))

end Cert.RowColumn

end
-- ==== Proof.KernelRow.lean ====
/-
  One row of the kernel body's result.

  The body receives a block of 4096 user rows, the matching block of item rows and the two whole tables, and stores one
  number per row. Read at row q, that number is the score of the pair (row q of the user block, row q of the item
  block): the three matrix products into a zero accumulator are plain sums over the contraction index (the first one
  against the transposed preference table, so it pairs row q of u + v with ROW p of the table), the narrowing to a
  shorter float format is the identity on the extended reals, and a sum along the rows with its dimension kept and
  broadcast back is the row's sum at every column.
-/
import proofs.«145480_j75720273429289_1_alg».proof.Proof.Gen.KernelIdeal.Skeleton
import proofs.«145480_j75720273429289_1_alg».proof.Proof.RouteScore
import proofs.«145480_j75720273429289_1_alg».proof.Proof.LibPlainMatmul
import proofs.«145480_j75720273429289_1_alg».proof.Proof.LibRowColumn
import Idealize.ShloMosaic.Lib.ValueLayout
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.ShloMosaic.ValueIdx Cert.RouteScore

/-- The first product's dimension numbers are those of a plain [4096, 64] x [64, 32] product. -/
theorem dims_weights : dot_S4096x64_S64x32_S4096x32_1_0_0_1_n_n = DotDims.plain 4096 64 32 := rfl

/-- The second and third products' dimension numbers are those of a plain [4096, 32] x [32, 64] product. -/
theorem dims_mix : dot_S4096x32_S32x64_S4096x64_1_0_0_1_n_n = DotDims.plain 4096 32 64 := rfl

/-- The absolute value of a vector, read at an index. -/
theorem absf_apply {s : Shape} {φ : FTy} (a : FVec Ideal s φ) (i : s.Idx) : absf a i = absE (a i) := rfl

/-- The sums along the rows of a [4096, 64] block, as a vector: entry i is the sum over the columns of row i. -/
def rowSums (src : FVec Ideal S4096x64 .f32) : FVec Ideal S4096 .f32 := fun i => ∑ k : Fin 64, src (ix2 (i 0) k)

theorem rowSums_apply (src : FVec Ideal S4096x64 .f32) (q : Fin 4096) : rowSums src (ix1 q) = ∑ k : Fin 64, src (ix2 q k) := rfl

/-- The body's sum along the rows, into the zero accumulator, is that vector. -/
theorem rowSum_eq (src : FVec Ideal S4096x64 .f32) (hφ : FKind.Formats .f32)
    (hacc : (0x00000000#32 : BitVec 32) = 0x00000000#32) :
    multiReduction .add [1] S4096 src 0x00000000#32 reduces_S4096x64_S4096 hφ hacc = rowSums src := by
  funext i
  rw [eq_ix1 i]
  exact Cert.RowColumn.rowSum_apply src _ _ hφ hacc (i 0)

/-- A vector of 4096 row sums, kept as a column and broadcast along the rows, reads at (q, k) the sum of row q. -/
theorem keep_apply (v : FVec Ideal S4096 .f32) (q : Fin 4096) (k : Fin 64) :
    broadcastTo S4096x64 (shapeCast S4096x1 v shapeCasts_S4096_S4096x1) broadcasts_S4096x1_S4096x64 (ix2 q k) = v (ix1 q) :=
  (Cert.RowColumn.broadcastTo_a1_ab_apply _ _ q k).trans (Cert.RowColumn.shapeCast_a_a1_apply v _ q 0)

/-- A [32, 64] table with its two axes exchanged: entry (k, p) is the table's entry (p, k). -/
def exchanged (x : FVec Ideal S32x64 .bf16) : FVec Ideal S64x32 .bf16 := fun j => x (ix2 (j 1) (j 0))

theorem exchanged_apply (x : FVec Ideal S32x64 .bf16) (k : Fin 64) (p : Fin 32) : exchanged x (ix2 k p) = x (ix2 p k) := rfl

/-- The body's transpose of the preference table is that exchange. -/
theorem transpose_eq (x : FVec Ideal S32x64 .bf16) :
    transpose S64x32 [1, 0] x transposes_S32x64_p1_0_S64x32 = exchanged x := by
  funext j
  rw [eq_ix2 j]
  exact transpose_ix2_apply x _ (j 0) (j 1)

/-- THE BODY'S RESULT AT ROW q is the score of the pair of rows q of its two blocks, under the two tables. -/
theorem pay_apply (x0 x1 : Vec Ideal S4096x64 .f32) (x2 x3 : Vec Ideal S32x64 .f32) (q : Fin 4096) :
    k0_pay1 (F := Ideal) x0 x1 x2 x3 (ix1 q) = score (row x2) (row x3) (row x0 q) (row x1 q) := by
  unfold k0_pay1
  simp only [dims_weights, dims_mix, shapeCast_self]
  -- the transposed table and the three sums along the rows, as whole vectors
  rw [transpose_eq, rowSum_eq, rowSum_eq, rowSum_eq]
  -- everything read at one index
  simp only [rowSums_apply, keep_apply, mulf_apply, addf_apply, subf_apply, absf_apply, Cert.PlainMatmul.apply, truncf_apply,
    exchanged_apply, broadcast_apply]
  rfl

end Cert.KernelIdeal.RowValue

end
-- ==== Proof.KernelArray.lean ====
/-
  The kernel's result array, whole.

  The grid has 128 points; point t stages rows 4096·t … 4096·t + 4095 of the two gathered arrays, the two tables whole,
  and writes back entries 4096·t … 4096·t + 4095 of the result. By the row lemma what it writes at entry i is the score
  of rows i of the two gathered arrays; the 128 blocks tile the result, so after the run the result array is the array
  of scores, one function of the gathered arrays and the tables. The gathered arrays are what the host operations before
  the region leave: rows of the user and item tables selected by the (wrapped) indices.
-/
import proofs.«145480_j75720273429289_1_alg».proof.Proof.Gen.KernelIdeal.Value
import proofs.«145480_j75720273429289_1_alg».proof.Proof.KernelRow
import Idealize.ShloMosaic.Lib.StableHlo.Run

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Cert.RouteScore
open Idealize.ShloMosaic.Pipeline (Dat)

variable (m : (ℓ : Loc nD τ sig) → Buf (Elt Ideal) ℓ) (ρ : Dev nD → PrngReg)

/-- The array of scores: entry i is the score of rows i of the two gathered arrays under the two tables. -/
def scores (ue ve : S524288x64.Idx → EReal) (P N : S32x64.Idx → EReal) : S524288.Idx → EReal :=
  fun i => score (row P) (row N) (row ue (i 0)) (row ve (i 0))

theorem origin1 : (![0] : Fin 1 → Nat) = fun _ => 0 := funext fun a => by fin_cases a; rfl
theorem origin2 : (![0, 0] : Fin 2 → Nat) = fun _ => 0 := funext fun a => by fin_cases a <;> rfl

/-- The body's result at entry q of its block is the score at entry b of the array, as soon as row q of each staged block
    is row b of its array and the staged tables are the tables. -/
theorem pay_scores (x0 x1 : Vec Ideal S4096x64 .f32) (x2 x3 : Vec Ideal S32x64 .f32)
    (ue ve : S524288x64.Idx → EReal) (P N : S32x64.Idx → EReal) (q : Fin 4096) (b : Fin 524288)
    (y : S4096.Idx) (hy : y = ix1 q) (i : S524288.Idx) (hi : i = ix1 b)
    (h0 : ∀ k : Fin 64, x0 (ix2 q k) = ue (ix2 b k)) (h1 : ∀ k : Fin 64, x1 (ix2 q k) = ve (ix2 b k))
    (h2 : x2 = P) (h3 : x3 = N) :
    k0_pay1 (F := Ideal) x0 x1 x2 x3 y = scores ue ve P N i := by
  subst hy hi
  rw [RowValue.pay_apply, h2, h3]
  exact congrArg₂ (score (row P) (row N)) (funext h0) (funext h1)

/-- The printed index maps, decided over the 128 points: the two row-blocked inputs move with the output, the tables
    stay, and the output's block index is the point's number. -/
theorem idx_facts : ∀ t : Fin cfg0.N, win0_0.index t (0 : Fin 2) = win0_4.index t (0 : Fin 1)
    ∧ win0_0.index t (1 : Fin 2) = 0
    ∧ win0_1.index t (0 : Fin 2) = win0_4.index t (0 : Fin 1)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Every block of the result is some point's. -/
theorem idx_onto : ∀ b : Fin 128, ∃ t : Fin cfg0.N, win0_4.index t = ![b.val] :=
  (by decide +kernel : ∀ b : Fin 128, ∃ t : Fin grid0.N, win0_4.index t = ![b.val])

/-- WHAT POINT t WRITES BACK is block t of the array of scores of the arrays as the region finds them. -/
theorem flushed_eq (c : Dev nD) (t : Fin cfg0.N) :
    (dats m 0 c).flushed 4 t = ((cfg0.win 4).blk t).view.read (Elt Ideal)
      (scores (V m c main_v6) (V m c main_v13) (V m c main_arg4) (V m c main_arg5)) := by
  rw [Value.flushed4]
  unfold out0_4
  rw [View.canon_unit_zero origin1]
  simp only [View.ld_unit_zero (S := S4096x64) origin2, View.ld_unit_zero (S := S32x64) origin2]
  obtain ⟨e0, e1, e2, e3, e4, e5, e6, e7⟩ := idx_facts t
  funext j
  show k0_pay1 (F := Ideal) (iblk m c 0 t) (iblk m c 1 t) (iblk m c 2 t) (iblk m c 3 t) j
    = scores (V m c main_v6) (V m c main_v13) (V m c main_arg4) (V m c main_arg5) (((cfg0.win 4).blk t).view.emb j)
  refine pay_scores _ _ _ _ _ _ _ _ ⟨(j 0).val, (j 0).isLt⟩
    ⟨((((cfg0.win 4).blk t).view.emb j) 0).val, ((((cfg0.win 4).blk t).view.emb j) 0).isLt⟩ j (eq_ix1 j) _ (eq_ix1 _)
    (fun k => ?_) (fun k => ?_) ?_ ?_
  · show V m c main_v6 (((cfg0.win 0).blk t).view.emb (ix2 ⟨(j 0).val, (j 0).isLt⟩ k))
      = V m c main_v6 (ix2 ⟨((((cfg0.win 4).blk t).view.emb j) 0).val, ((((cfg0.win 4).blk t).view.emb j) 0).isLt⟩ k)
    refine congrArg (V m c main_v6) (funext fun a => Fin.ext ?_)
    match a with
    | ⟨0, _⟩ => show win0_0.index t (0 : Fin 2) * 4096 + 1 * (j 0).val = win0_4.index t (0 : Fin 1) * 4096 + 1 * (j 0).val; omega
    | ⟨1, _⟩ => show win0_0.index t (1 : Fin 2) * 64 + 1 * k.val = k.val; omega
  · show V m c main_v13 (((cfg0.win 1).blk t).view.emb (ix2 ⟨(j 0).val, (j 0).isLt⟩ k))
      = V m c main_v13 (ix2 ⟨((((cfg0.win 4).blk t).view.emb j) 0).val, ((((cfg0.win 4).blk t).view.emb j) 0).isLt⟩ k)
    refine congrArg (V m c main_v13) (funext fun a => Fin.ext ?_)
    match a with
    | ⟨0, _⟩ => show win0_1.index t (0 : Fin 2) * 4096 + 1 * (j 0).val = win0_4.index t (0 : Fin 1) * 4096 + 1 * (j 0).val; omega
    | ⟨1, _⟩ => show win0_1.index t (1 : Fin 2) * 64 + 1 * k.val = k.val; omega
  · funext y
    show V m c main_arg4 (((cfg0.win 2).blk t).view.emb y) = V m c main_arg4 y
    refine congrArg (V m c main_arg4) (funext fun a => Fin.ext ?_)
    match a with
    | ⟨0, _⟩ => show win0_2.index t (0 : Fin 2) * 32 + 1 * (y 0).val = (y 0).val; omega
    | ⟨1, _⟩ => show win0_2.index t (1 : Fin 2) * 64 + 1 * (y 1).val = (y 1).val; omega
  · funext y
    show V m c main_arg5 (((cfg0.win 3).blk t).view.emb y) = V m c main_arg5 y
    refine congrArg (V m c main_arg5) (funext fun a => Fin.ext ?_)
    match a with
    | ⟨0, _⟩ => show win0_3.index t (0 : Fin 2) * 32 + 1 * (y 0).val = (y 0).val; omega
    | ⟨1, _⟩ => show win0_3.index t (1 : Fin 2) * 64 + 1 * (y 1).val = (y 1).val; omega

/-- An entry of the result is in point t's block iff it lies in the block's range. -/
theorem mem_blk (t : Fin cfg0.N) (i : S524288.Idx) :
    i ∈ ((cfg0.win 4).blk t).view.set ↔ ∀ a : Fin 1, win0_4.index t a * S4096.size a ≤ (i a).val ∧ (i a).val < win0_4.index t a * S4096.size a + S4096.size a := by
  show i ∈ ((View.whole main_v14).slice (win0_4.rect t)).set ↔ _
  rw [View.set_slice_whole, Rect.mem_set_unit]
  exact Iff.rfl

/-- THE BLOCKS TILE THE RESULT: entry i is in the block of the point whose block index is i / 4096. -/
theorem cover (i : S524288.Idx) :
    ∃ t : Fin cfg0.N, (cfg0.win 4).flush t = true ∧ i ∈ ((cfg0.win 4).blk t).view.set := by
  have hi : (i 0).val < 524288 := (i 0).isLt
  obtain ⟨t, ht⟩ := idx_onto ⟨(i 0).val / 4096, by omega⟩
  have q0 : win0_4.index t (0 : Fin 1) = (i 0).val / 4096 := congrFun ht 0
  refine ⟨t, flush0_4 t, ?_⟩
  rw [mem_blk]
  intro a
  match a with
  | ⟨0, _⟩ => show win0_4.index t (0 : Fin 1) * 4096 ≤ (i 0).val ∧ (i 0).val < win0_4.index t (0 : Fin 1) * 4096 + 4096; omega

/-- THE RESULT ARRAY after the run: the scores of the two gathered arrays as the region finds them, under the tables as
    launched. -/
theorem final (c : Dev nD) : (dats m 0 c).arrAt 4 cfg0.N
    = scores (V m c main_v6) (V m c main_v13) (m ((c : Thread nD τ).loc main_arg4)) (m ((c : Thread nD τ).loc main_arg5)) := by
  rw [← V_main_arg4 m c, ← V_main_arg5 m c]
  exact (dats m 0 c).arrAt_eq_of_cover 4 _ (fun t _ => flushed_eq m c t) cover

end Cert.KernelIdeal.ArrayValue

end
-- ==== Proof.ReferenceRow.lean ====
/-
  One entry of the reference's result.

  The reference gathers the same two arrays of rows on the host and then computes, with whole-array operations, the
  routing weights (a product contracted over the tables' second axis, times one half), the relation vectors and the
  normals (two products contracted over the preferences), the two inner products as sums along the rows started from
  zero, the projections, and the L1 norm as a last sum along the rows started from zero. Read at entry b, the result is
  the score of rows b of the two gathered arrays: each operation is read at an index, the sums started from the zero
  word add nothing, and the host's absolute value is the kernel's.
-/
import proofs.«145480_j75720273429289_1_alg».proof.Proof.Gen.ReferenceIdeal.Read
import proofs.«145480_j75720273429289_1_alg».proof.Proof.RouteScore

noncomputable section

namespace Cert.ReferenceIdeal.RowValue

open Cert.ReferenceIdeal Cert.ReferenceIdeal.Gen Cert.ReferenceIdeal.Read Idealize.ShloMosaic Idealize.ShloMosaic.ValueIdx
open Cert.RouteScore

/-! The composed index maps of the run, at indices written by their coordinates. -/

theorem at_sum (b : Fin 524288) (k : Fin 64) : idx_main_v35 (ix1 b) k = ix2 b k :=
  funext fun a => match a with | ⟨0, _⟩ => rfl | ⟨1, _⟩ => rfl
theorem at_bcast_u (b : Fin 524288) (d : Fin 64) : idx_main_v23 (ix2 b d) = ix2 b (0 : Fin 1) :=
  funext fun a => match a with | ⟨0, _⟩ => rfl | ⟨1, _⟩ => rfl
theorem at_col_u (b : Fin 524288) (u : Fin 1) : idx_main_v22 (ix2 b u) = ix1 b :=
  funext fun a => match a with | ⟨0, _⟩ => rfl
theorem at_dot_u (b : Fin 524288) (k : Fin 64) : idx_main_v21 (ix1 b) k = ix2 b k :=
  funext fun a => match a with | ⟨0, _⟩ => rfl | ⟨1, _⟩ => rfl
theorem at_bcast_v (b : Fin 524288) (d : Fin 64) : idx_main_v29 (ix2 b d) = ix2 b (0 : Fin 1) :=
  funext fun a => match a with | ⟨0, _⟩ => rfl | ⟨1, _⟩ => rfl
theorem at_col_v (b : Fin 524288) (u : Fin 1) : idx_main_v28 (ix2 b u) = ix1 b :=
  funext fun a => match a with | ⟨0, _⟩ => rfl
theorem at_dot_v (b : Fin 524288) (k : Fin 64) : idx_main_v27 (ix1 b) k = ix2 b k :=
  funext fun a => match a with | ⟨0, _⟩ => rfl | ⟨1, _⟩ => rfl
theorem at_normal_l (b : Fin 524288) (d : Fin 64) (p : Fin 32) : lidx_main_v19 (ix2 b d) p = ix2 b p :=
  funext fun a => match a with | ⟨0, _⟩ => rfl | ⟨1, _⟩ => rfl
theorem at_normal_r (b : Fin 524288) (d : Fin 64) (p : Fin 32) : ridx_main_v19 (ix2 b d) p = ix2 p d :=
  funext fun a => match a with | ⟨0, _⟩ => rfl | ⟨1, _⟩ => rfl
theorem at_relation_l (b : Fin 524288) (d : Fin 64) (p : Fin 32) : lidx_main_v18 (ix2 b d) p = ix2 b p :=
  funext fun a => match a with | ⟨0, _⟩ => rfl | ⟨1, _⟩ => rfl
theorem at_relation_r (b : Fin 524288) (d : Fin 64) (p : Fin 32) : ridx_main_v18 (ix2 b d) p = ix2 p d :=
  funext fun a => match a with | ⟨0, _⟩ => rfl | ⟨1, _⟩ => rfl
theorem at_weight_l (b : Fin 524288) (p : Fin 32) (k : Fin 64) : lidx_main_v15 (ix2 b p) k = ix2 b k :=
  funext fun a => match a with | ⟨0, _⟩ => rfl | ⟨1, _⟩ => rfl
theorem at_weight_r (b : Fin 524288) (p : Fin 32) (k : Fin 64) : ridx_main_v15 (ix2 b p) k = ix2 p k :=
  funext fun a => match a with | ⟨0, _⟩ => rfl | ⟨1, _⟩ => rfl

/-- THE REFERENCE'S RESULT AT ENTRY b is the score of rows b of its two gathered arrays, under the two tables. -/
theorem ref_apply (x0 x1 : (⟨S524288, .i32⟩ : BufTy).Contents (Elt Ideal)) (x2 : (⟨S1000000x64, .f32⟩ : BufTy).Contents (Elt Ideal))
    (x3 : (⟨S2000000x64, .f32⟩ : BufTy).Contents (Elt Ideal)) (x4 x5 : (⟨S32x64, .f32⟩ : BufTy).Contents (Elt Ideal)) (b : Fin 524288) :
    val_main_v35 (F := Ideal) x0 x1 x2 x3 x4 x5 (ix1 b)
      = score (row x4) (row x5) (row (val_main_v6 (F := Ideal) x0 x2) b) (row (val_main_v13 (F := Ideal) x1 x3) b) := by
  simp only [val_main_v35_apply, val_main_v34_apply, val_main_v33_apply, val_main_v32_apply, val_main_v31_apply,
    val_main_v30_apply, val_main_v29_apply, val_main_v28_apply, val_main_v27_apply, val_main_v26_apply, val_main_v25_apply,
    val_main_v24_apply, val_main_v23_apply, val_main_v22_apply, val_main_v21_apply, val_main_v20_apply, val_main_v19_apply,
    val_main_v18_apply, val_main_v17_apply, val_main_v16_apply, val_main_v15_apply, val_main_v14_apply,
    val_main_cst_apply, val_main_cst_3_apply, val_main_cst_4_apply, val_main_cst_5_apply]
  simp only [at_sum, at_bcast_u, at_col_u, at_dot_u, at_bcast_v, at_col_v, at_dot_v, at_normal_l, at_normal_r,
    at_relation_l, at_relation_r, at_weight_l, at_weight_r, Ideal.ofBits_def, Ideal.ofBits_zero_f32, zero_add]
  rfl

end Cert.ReferenceIdeal.RowValue

end
-- ==== Proof.Bridge.lean ====
/-
  The two programs end at one array.

  Both programs begin with the same host operations: a negative index is wrapped by adding the table's length, the
  indices are laid out as a column, and the rows they select are gathered from the user table and from the item table.
  So the two arrays the kernel's region finds are the reference's two gathered arrays, as functions of the index
  vectors and the tables. The kernel's result array is the array of scores of those two arrays (the blocks tile it), and
  the reference's result, read entry by entry, is the same array of scores.
-/
import proofs.«145480_j75720273429289_1_alg».proof.Proof.KernelArray
import proofs.«145480_j75720273429289_1_alg».proof.Proof.ReferenceRow
import Idealize.ShloMosaic.Lib.StableHlo.Run

set_option maxRecDepth 16384

noncomputable section

namespace Cert.Bridge

open Idealize.ShloMosaic Idealize.ShloMosaic.TcCoe Idealize.SL.Sem Idealize.ShloMosaic.ValueIdx Cert.RouteScore
open Cert.ReferenceIdeal.Read

/-- THE COMMON RESULT, as one function of the six arguments: entry i is the score of the user row and the item row that
    indices i select, under the two tables. -/
def result (x0 x1 : (⟨Cert.ReferenceIdeal.S524288, .i32⟩ : BufTy).Contents (Elt Ideal))
    (x2 : (⟨Cert.ReferenceIdeal.S1000000x64, .f32⟩ : BufTy).Contents (Elt Ideal))
    (x3 : (⟨Cert.ReferenceIdeal.S2000000x64, .f32⟩ : BufTy).Contents (Elt Ideal))
    (x4 x5 : (⟨Cert.ReferenceIdeal.S32x64, .f32⟩ : BufTy).Contents (Elt Ideal)) : Cert.KernelIdeal.S524288.Idx → EReal :=
  Cert.KernelIdeal.ArrayValue.scores (val_main_v6 (F := Ideal) x0 x2) (val_main_v13 (F := Ideal) x1 x3) x4 x5

section Kernel

open Cert.KernelIdeal Cert.KernelIdeal.Gen

variable (m : (ℓ : Loc nD τ sig) → Buf (Elt Ideal) ℓ)

/-- The gathered user rows the region finds are the reference's, of the same index vector and table. -/
theorem users_eq (c : Dev nD) :
    (V m c main_v6 : S524288x64.Idx → EReal)
      = val_main_v6 (F := Ideal) (m ((c : Thread nD τ).loc main_arg0)) (m ((c : Thread nD τ).loc main_arg2)) := by
  dsimp only [V, hostOps0]
  after_results
  rfl

/-- The gathered item rows the region finds are the reference's, of the same index vector and table. -/
theorem items_eq (c : Dev nD) :
    (V m c main_v13 : S524288x64.Idx → EReal)
      = val_main_v13 (F := Ideal) (m ((c : Thread nD τ).loc main_arg1)) (m ((c : Thread nD τ).loc main_arg3)) := by
  dsimp only [V, hostOps0]
  after_results
  rfl

/-- THE KERNEL'S RESULT ARRAY after the run is the common result of the arguments as launched. -/
theorem kernel_result (c : Dev nD) : (dats m 0 c).arrAt 4 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [ArrayValue.final, users_eq, items_eq]
  rfl

end Kernel

/-- THE REFERENCE'S RESULT is the common result of its arguments. -/
theorem reference_result (x0 x1 : (⟨Cert.ReferenceIdeal.S524288, .i32⟩ : BufTy).Contents (Elt Ideal))
    (x2 : (⟨Cert.ReferenceIdeal.S1000000x64, .f32⟩ : BufTy).Contents (Elt Ideal))
    (x3 : (⟨Cert.ReferenceIdeal.S2000000x64, .f32⟩ : BufTy).Contents (Elt Ideal))
    (x4 x5 : (⟨Cert.ReferenceIdeal.S32x64, .f32⟩ : BufTy).Contents (Elt Ideal)) :
    val_main_v35 (F := Ideal) x0 x1 x2 x3 x4 x5 = result x0 x1 x2 x3 x4 x5 := by
  funext i
  obtain ⟨b, rfl⟩ : ∃ b : Fin 524288, i = ix1 b := ⟨⟨(i 0).val, (i 0).isLt⟩, eq_ix1 i⟩
  exact Cert.ReferenceIdeal.RowValue.ref_apply x0 x1 x2 x3 x4 x5 b

end Cert.Bridge

end
-- ==== Proof.lean ====
/-
  A recommender's score for 524288 (user, item) pairs: the kernel against its reference, over the extended reals.

  Both programs gather, on the host, the user rows and the item rows the two index vectors select (a negative index
  wrapped by the table's length). The reference then computes with whole arrays: routing weights w = ½ (u + v) Pᵀ over 32
  preference rows, a relation vector r = w P and a hyperplane normal n = w N, the projections e − ⟨e, n⟩ n of u and of v,
  and the L1 norm of (projected u) + r − (projected v). The kernel computes the same inside one pipelined region, 4096
  rows per grid point, with its three products on the matrix unit in a narrower float format and into zero accumulators.

  Over the extended reals a change of float format is the identity, a product into the zero accumulator is the plain
  sum over the contraction index, and a sum along the rows started from the zero word is the plain sum; a row's score
  depends on that row of the two gathered arrays only. So what a grid point writes back is the block of ONE array of
  scores (Proof/KernelRow.lean, Proof/KernelArray.lean), the 128 blocks tile the result, and the reference's result read
  entry by entry is the same array (Proof/ReferenceRow.lean, Proof/Bridge.lean). No algebraic law beyond reading each
  operation at an index is needed, so the finiteness of the inputs is never used.

  The three frames are the generated runs; the idealization rewrote nothing, so its conjunct is trivial.
-/
import proofs.«145480_j75720273429289_1_alg».proof.Defs
import proofs.«145480_j75720273429289_1_alg».proof.Proof.Gen.Kernel
import proofs.«145480_j75720273429289_1_alg».proof.Proof.Gen.Kernel.Skeleton
import proofs.«145480_j75720273429289_1_alg».proof.Proof.Gen.Kernel.Launch
import proofs.«145480_j75720273429289_1_alg».proof.Proof.Gen.Kernel.Points
import proofs.«145480_j75720273429289_1_alg».proof.Proof.Gen.Kernel.Frame
import proofs.«145480_j75720273429289_1_alg».proof.Proof.Gen.KernelIdeal
import proofs.«145480_j75720273429289_1_alg».proof.Proof.Gen.KernelIdeal.Skeleton
import proofs.«145480_j75720273429289_1_alg».proof.Proof.Gen.KernelIdeal.Launch
import proofs.«145480_j75720273429289_1_alg».proof.Proof.Gen.KernelIdeal.Points
import proofs.«145480_j75720273429289_1_alg».proof.Proof.Gen.KernelIdeal.Frame
import proofs.«145480_j75720273429289_1_alg».proof.Proof.Gen.ReferenceIdeal
import proofs.«145480_j75720273429289_1_alg».proof.Proof.Gen.Pre_finite_inputs
import proofs.«145480_j75720273429289_1_alg».proof.Proof.Gen.KernelIdeal.Value
import proofs.«145480_j75720273429289_1_alg».proof.Proof.Gen.ReferenceIdeal.Run
import proofs.«145480_j75720273429289_1_alg».proof.Proof.Gen.ReferenceIdeal.Read
import proofs.«145480_j75720273429289_1_alg».proof.Proof.Bridge
import Idealize.ShloMosaic.Adequacy
import Idealize.ShloMosaic.Init

noncomputable section

namespace Cert.Proof

open Idealize.ShloMosaic Idealize.SL.Sem

/-- The word-level kernel runs and leaves its arguments as launched: the generated frame. -/
theorem frame_kernel : Cert.frame_Kernel := fun m ρ _ => Cert.Kernel.Gen.frame m ρ

/-- The idealized kernel runs and leaves its arguments as launched: the generated frame. -/
theorem frame_kernel_ideal : Cert.frame_KernelIdeal := fun m ρ _ => Cert.KernelIdeal.Gen.frame m ρ

/-- The reference runs and leaves its arguments as launched: its generated run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Run from memories that agree on the six arguments, both programs end with the array of scores of those arguments. -/
theorem algebraic : Cert.algebraic_KernelIdeal_ReferenceIdeal := by
  intro m ρ m' ρ' _ hagree
  refine ⟨fun c => Cert.Bridge.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.Bridge.kernel_result m c), (h c).2⟩)
      (Cert.KernelIdeal.Value.run_blocks (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v35_eq, Cert.Bridge.reference_result,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
